-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : IVec S2x1600000 32) (main_arg2 : FVec F S128x128 .f32) (main_arg3 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S5000x128 : Shape := ⟨2, ![5000, 128]⟩
abbrev S1700000x128 : Shape := ⟨2, ![1700000, 128]⟩
abbrev S1x128 : Shape := ⟨2, ![1, 128]⟩

abbrev nBuf : Space → Nat
  | .hbm => 43
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S100000x128, .f32⟩
  | .hbm, ⟨27, _⟩ => ⟨S100000x128, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000x128, .f32⟩
  | .hbm, ⟨37, _⟩ => ⟨S_, .f32⟩
  | .hbm, ⟨38, _⟩ => ⟨S100000x128, .f32⟩
  | .hbm, ⟨39, _⟩ => ⟨S1700000x1, .i32⟩
  | .hbm, ⟨40, _⟩ => ⟨S100000x128, .f32⟩
  | .hbm, ⟨41, _⟩ => ⟨S1x128, .f32⟩
  | .hbm, ⟨42, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S5000x128_S5000x128 : S5000x128.ShapeCasts S5000x128
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1700000x1_S1700000_n_0_0_1_wf : ScatterDims.WF S100000 S1700000x1 S1700000 [] [0] [0] 1
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 64
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S100000x128, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x128, .f32⟩
  | .hbm, ⟨54, _⟩ => ⟨S1700000x1, .f32⟩
  | .hbm, ⟨55, _⟩ => ⟨S1700000x128, .f32⟩
  | .hbm, ⟨56, _⟩ => ⟨S1700000x128, .f32⟩
  | .hbm, ⟨57, _⟩ => ⟨S_, .f32⟩
  | .hbm, ⟨58, _⟩ => ⟨S100000x128, .f32⟩
  | .hbm, ⟨59, _⟩ => ⟨S1700000x1, .i32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KHost.lean ====
/-
  The host side of the kernel's program, as functions of the argument arrays.
  From the edge list `e : [2, E]` the program appends one self-loop per node (`srcV`, `dstV`: E + N sources and
  targets), counts each node's incoming edges by a scatter-add of ones (`degV`), and takes
  `dinv = deg > 0 ? deg^(-1/2) : 0` (`dinvV`), laid along every row of an [N, 128] array (`dinvB`).
  Between the two kernel regions it gathers the rows of the scaled features at the sources (negative row numbers
  wrapped by N first, `wrapIdx`) and scatter-adds them at the targets (`aggV`); the bias enters the second region as one
  row (`biasRow`).  The lemmas below read the program's buffers at the boundaries of its host stretches as these
  functions of the launch memory.
-/
import proofs.«163717_j34591666602118_1_alg».proof.Proof.Gen.KernelIdeal.Frame
import Idealize.ShloMosaic.Lib.StableHlo.Run

set_option maxRecDepth 16384

noncomputable section

namespace Cert.KernelIdeal.HostValue

open Cert.KernelIdeal Cert.KernelIdeal.Gen
open Idealize.ShloMosaic Idealize.ShloMosaic.TcCoe Idealize.ShloMosaic.StableHlo Idealize.SL.Sem

variable {F : FTy → Type} [FloatOps F]

/-- Edge sources followed by one self-loop per node. -/
def srcV (e : IVec S2x1600000 32) : IVec S1700000 32 :=
  concatenate S1700000 0 [⟨S1600000, shapeCast _ (extractStridedSlice S1x1600000 ![0, 0] e slices_S2x1600000_S1x1600000_0_0) shapeCasts_S1x1600000_S1600000⟩, ⟨S100000, iotaInDim S100000 32 0⟩] concatenates_S1600000_S100000_S1700000_d0

/-- Edge targets followed by one self-loop per node. -/
def dstV (e : IVec S2x1600000 32) : IVec S1700000 32 :=
  concatenate S1700000 0 [⟨S1600000, shapeCast _ (extractStridedSlice S1x1600000 ![1, 0] e slices_S2x1600000_S1x1600000_1_0) shapeCasts_S1x1600000_S1600000⟩, ⟨S100000, iotaInDim S100000 32 0⟩] concatenates_S1600000_S100000_S1700000_d0

/-- A vector of row numbers kept as an [n, 1] column of start indices. -/
def colIdx (v : IVec S1700000 32) : IVec S1700000x1 32 :=
  broadcastInDim S1700000x1 ![0] bcast_S1700000_S1700000x1_0 v

/-- In-degree with self-loops: ones scatter-added at the targets. -/
def degV (e : IVec S2x1600000 32) : FVec F S100000 .f32 :=
  Host.scatterAdd scatter_S100000_S1700000x1_S1700000_n_0_0_1 (broadcastInDim S100000 ![] bcast_S_S100000 (constant S_ .f32 0x00000000#32)) (colIdx (dstV e)) (broadcastInDim S1700000 ![] bcast_S_S1700000 (constant S_ .f32 0x3F800000#32))

/-- The normalisation factor of a node: `deg > 0 ? deg^(-1/2) : 0`. -/
def dinvV (e : IVec S2x1600000 32) : FVec F S100000 .f32 :=
  select (cmpf (F := F) .ogt (degV e) (broadcastInDim S100000 ![] bcast_S_S100000 (constant S_ .f32 0x00000000#32))) (Host.rsqrt (degV (F := F) e)) (broadcastInDim S100000 ![] bcast_S_S100000 (id (constant S_ .f32 0x00000000#32)))

/-- The factor laid along every row of an [N, 128] array. -/
def dinvB (e : IVec S2x1600000 32) : FVec F S100000x128 .f32 :=
  broadcastInDim S100000x128 ![0, 1] bcast_S100000x1_S100000x128_0_1 (broadcastInDim S100000x1 ![0] bcast_S100000_S100000x1_0 (dinvV (F := F) e))

/-- A negative row number wrapped by the number of nodes, as array indexing does before it gathers. -/
def wrapIdx (v : IVec S1700000 32) : IVec S1700000 32 :=
  select (cmpi .slt v (broadcastInDim S1700000 ![] bcast_S_S1700000 (constantI S_ 32 0#32))) (addi v (broadcastInDim S1700000 ![] bcast_S_S1700000 (constantI S_ 32 100000#32))) v

/-- Neighbourhood aggregation: the rows of `hn` gathered at the sources, scatter-added at the targets. -/
def aggV (hn : FVec F S100000x128 .f32) (e : IVec S2x1600000 32) : FVec F S100000x128 .f32 :=
  Host.scatterAdd scatter_S100000x128_S1700000x1_S1700000x128_1_0_0_1 (broadcastInDim S100000x128 ![] bcast_S_S100000x128 (constant S_ .f32 0x00000000#32)) (colIdx (dstV e)) (Host.gather gather_S100000x128_S1700000x1_S1700000x128_1_0_n_n_0_1_1128 hn (colIdx (wrapIdx (srcV e))))

/-- The bias as one row. -/
def biasRow (b : FVec F S128 .f32) : FVec F S1x128 .f32 :=
  shapeCast _ b shapeCasts_S128_S1x128

variable (m : (ℓ : Loc nD τ sig) → Buf (Elt F) ℓ) (ρ : Dev nD → PrngReg)

/-! ## The first region's entry contents -/

theorem W3_src (c : Dev nD) : W3 m ρ c (Proc.devRef .tc main_v3) = srcV (m ((c : Thread nD τ).loc main_arg1)) := by
  show StableHlo.after hostOps0_2 (StableHlo.after hostOps0_1 (StableHlo.after hostOps0 (W0 m ρ c))) (Proc.devRef .tc main_v3) = _
  after_results
  rfl

theorem W3_dst (c : Dev nD) : W3 m ρ c (Proc.devRef .tc main_v6) = dstV (m ((c : Thread nD τ).loc main_arg1)) := by
  show StableHlo.after hostOps0_2 (StableHlo.after hostOps0_1 (StableHlo.after hostOps0 (W0 m ρ c))) (Proc.devRef .tc main_v6) = _
  after_results
  rfl

theorem W3_dinvB (c : Dev nD) : W3 m ρ c (Proc.devRef .tc main_v16) = dinvB (F := F) (m ((c : Thread nD τ).loc main_arg1)) := by
  show StableHlo.after hostOps0_2 (StableHlo.after hostOps0_1 (StableHlo.after hostOps0 (W0 m ρ c))) (Proc.devRef .tc main_v16) = _
  after_results
  rfl

theorem W3_x (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results

theorem W3_w (c : Dev nD) : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results

theorem W3_b (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results

/-! ## Across the first region: what it does not write it leaves -/

theorem W4_src (c : Dev nD) : W4 m ρ c (Proc.devRef .tc main_v3) = srcV (m ((c : Thread nD τ).loc main_arg1)) :=
  (W4_of_ne m ρ c main_v3 (by decide)).trans (W3_src m ρ c)

theorem W4_dst (c : Dev nD) : W4 m ρ c (Proc.devRef .tc main_v6) = dstV (m ((c : Thread nD τ).loc main_arg1)) :=
  (W4_of_ne m ρ c main_v6 (by decide)).trans (W3_dst m ρ c)

theorem W4_b (c : Dev nD) : W4 m ρ c (Proc.devRef .tc main_arg3) = m ((c : Thread nD τ).loc main_arg3) :=
  (W4_of_ne m ρ c main_arg3 (by decide)).trans (W3_b m ρ c)

/-- The factor array is an input window of the first region: it leaves the region as it entered. -/
theorem W4_dinvB (c : Dev nD) : W4 m ρ c (Proc.devRef .tc main_v16) = dinvB (F := F) (m ((c : Thread nD τ).loc main_arg1)) :=
  ((W4_arr m ρ c 1).trans (((dat0 (V3 m ρ) c).arrAt_in 1 rfl _).trans (A_eq0 (V3 m ρ) c 1))).trans (W3_dinvB m ρ c)

/-! ## The second region's entry contents -/

theorem W5_agg (c : Dev nD) :
    W5 m ρ c (Proc.devRef .tc main_v27) = aggV (F := F) (W4 m ρ c (Proc.devRef .tc main_v17)) (m ((c : Thread nD τ).loc main_arg1)) := by
  show StableHlo.after hostOps1 (W4 m ρ c) (Proc.devRef .tc main_v27) = _
  after_results
  rw [W4_src, W4_dst]
  rfl

theorem W5_dinvB (c : Dev nD) : W5 m ρ c (Proc.devRef .tc main_v16) = dinvB (F := F) (m ((c : Thread nD τ).loc main_arg1)) := by
  show StableHlo.after hostOps1 (W4 m ρ c) (Proc.devRef .tc main_v16) = _
  after_results
  exact W4_dinvB m ρ c

theorem W5_bias (c : Dev nD) : W5 m ρ c (Proc.devRef .tc main_v28) = biasRow (F := F) (m ((c : Thread nD τ).loc main_arg3)) := by
  show StableHlo.after hostOps1 (W4 m ρ c) (Proc.devRef .tc main_v28) = _
  after_results
  rw [W4_b]
  rfl

end Cert.KernelIdeal.HostValue

end
-- ==== Proof.Spec.lean ====
/-
  One graph-convolution layer with self-loops and symmetric degree normalisation, as functions of whole arrays.
  With `h = x · W` (an exact sum of 128 products per entry) and `dv` the per-node factor laid along each row:
  the first kernel region leaves `h · dv`, entry by entry; the second leaves `s · dv + b`, the bias row laid along
  every row.  Both are pointwise in the row index, so a row block of the result depends on the same row block of the
  operands only.
-/
import Idealize.ShloMosaic.PureOps.Ideal
import Idealize.ShloMosaic.Lib.ValueIdx

noncomputable section

open scoped BigOperators

namespace Cert.GcnSpec

open Idealize.ShloMosaic Idealize.ShloMosaic.ValueIdx

/-- Node features / messages: 100000 nodes, 128 features. -/
abbrev SNM : Shape := ⟨2, ![100000, 128]⟩
/-- The weight matrix. -/
abbrev SMM : Shape := ⟨2, ![128, 128]⟩
/-- The bias kept as one row. -/
abbrev S1M : Shape := ⟨2, ![1, 128]⟩

/-- The node (row) of an entry. -/
def row (i : SNM.Idx) : Fin 100000 := ⟨(i 0).val, idx2_lt0 i⟩
/-- The feature (column) of an entry. -/
def col (i : SNM.Idx) : Fin 128 := ⟨(i 1).val, idx2_lt1 i⟩

theorem eq_row_col (i : SNM.Idx) : i = ix2 (row i) (col i) := by
  funext a; match a with | ⟨0, _⟩ => rfl | ⟨1, _⟩ => rfl
@[simp] theorem row_ix2 (p : Fin 100000) (q : Fin 128) : row (ix2 p q) = p := rfl
@[simp] theorem col_ix2 (p : Fin 100000) (q : Fin 128) : col (ix2 p q) = q := rfl

/-- The linear transform `x · W`: entry (p, q) is the sum over k of x[p, k] · W[k, q]. -/
def xw (x : SNM.Idx → EReal) (w : SMM.Idx → EReal) : SNM.Idx → EReal :=
  fun i => ∑ k : Fin 128, x (ix2 (row i) k) * w (ix2 k (col i))

/-- What the first region leaves: the transformed features scaled entry by entry. -/
def scaled (x : SNM.Idx → EReal) (dv : SNM.Idx → EReal) (w : SMM.Idx → EReal) : SNM.Idx → EReal :=
  fun i => xw x w i * dv i

/-- What the second region leaves: the aggregated messages scaled entry by entry, plus the bias row. -/
def finalized (s : SNM.Idx → EReal) (dv : SNM.Idx → EReal) (b : S1M.Idx → EReal) : SNM.Idx → EReal :=
  fun i => s i * dv i + b (ix2 (0 : Fin 1) (col i))

end Cert.GcnSpec

end
-- ==== Proof.Region0.lean ====
/-
  The first region, as one function of whole arrays.  The region walks the 20 row blocks of a [100000,128] array;
  at block t it takes rows 5000·t … 5000·t + 4999 of x and of the per-node factor dv (laid along each row), and the
  whole weight matrix W, and leaves (x · W) · dv on the same rows, entry by entry: entry (p, q) of the block is
  (Σ k, x[p, k] · W[k, q]) · dv[p, q].  The row blocks tile the array, so after the region the output array is
  `scaled x dv W` everywhere.
-/
import proofs.«163717_j34591666602118_1_alg».proof.Proof.Gen.KernelIdeal.Frame
import proofs.«163717_j34591666602118_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region0

open Cert.KernelIdeal Cert.KernelIdeal.Gen Cert.GcnSpec Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-- The stores' and loads' offsets are zero on both axes. -/
theorem zeros_eq : (![0, 0] : Fin 2 → Nat) = fun _ => 0 := funext fun a => by fin_cases a <;> rfl

/-! ## The contraction's operand indices, axis by axis

The product contracts axis 1 of the left operand with axis 0 of the right one; the left operand's axis 0 and the
right operand's axis 1 are the result's two axes. -/

theorem lhs_row (i : S5000x128.Idx) (k : dot_S5000x128_S128x128_S5000x128_1_0_0_1_n_n.contr.Idx) :
    (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_contr (i : S5000x128.Idx) (k : dot_S5000x128_S128x128_S5000x128_1_0_0_1_n_n.contr.Idx) :
    (dot_S5000x128_S128x128_S5000x128_1_0_0_1_n_n.lhsIdx i k 1).val = (k ⟨0, by decide⟩).val :=
  dot_S5000x128_S128x128_S5000x128_1_0_0_1_n_n.lhsIdx_val_of_single rfl i k
theorem rhs_contr (i : S5000x128.Idx) (k : dot_S5000x128_S128x128_S5000x128_1_0_0_1_n_n.contr.Idx) :
    (dot_S5000x128_S128x128_S5000x128_1_0_0_1_n_n.rhsIdx i k 0).val = (k ⟨0, by decide⟩).val :=
  dot_S5000x128_S128x128_S5000x128_1_0_0_1_n_n.rhsIdx_val_of_single rfl i k
theorem rhs_col (i : S5000x128.Idx) (k : dot_S5000x128_S128x128_S5000x128_1_0_0_1_n_n.contr.Idx) :
    (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The matrix product into a zero accumulator, at entry (p, q): the sum over k of a[p, k] · b[k, q]. -/
theorem matmul_at (a : FVec Ideal S5000x128 .bf16) (b : FVec Ideal S128x128 .bf16) (p : Fin 5000) (q : Fin 128) :
    matmul dot_S5000x128_S128x128_S5000x128_1_0_0_1_n_n none a b (constant (F := Ideal) S5000x128 .f32 0x00000000#32) (ix2 p q)
      = ∑ k : Fin 128, a (ix2 p k) * b (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_contr _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_contr _ _).trans hk
    | ⟨1, _⟩ => exact rhs_col _ _)
  rw [el, er]

/-- The body's stored value at entry (p, q) of its block: (Σ k, x0[p, k] · x2[k, q]) · x1[p, q].
    The narrowing of the two factors is the identity on extended reals, and the cast of x1 to its own shape is x1. -/
theorem payload_at (x0 x1 : Vec Ideal S5000x128 .f32) (x2 : Vec Ideal S128x128 .f32) (p : Fin 5000) (q : Fin 128) :
    k0_pay1 (F := Ideal) x0 x2 x1 (ix2 p q) = (∑ k : Fin 128, x0 (ix2 p k) * x2 (ix2 k q)) * x1 (ix2 p q) := by
  unfold k0_pay1
  rw [mulf_apply, shapeCast_self, matmul_at]
  simp only [truncf_apply]

/-! ## The blocks at a grid point

The grid has 20 points; point t works on rows 5000·t … 5000·t + 4999 of the three [100000,128] arrays and on the whole
weight matrix. -/

/-- The block index of each array at grid point t: x, the per-node factor and the output are at block row t,
    block column 0; the weight matrix stays at block (0, 0). -/
theorem index_facts : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 20 :=
  lt_of_lt_of_eq t.isLt (show cfg0.N = 20 from N_0)

/-- Row p of point t's block is row 5000·t + p of the array. -/
def rowAt (t : Fin cfg0.N) (p : Fin 5000) : Fin 100000 :=
  ⟨t.val * 5000 + p.val, by have := point_lt t; have := p.isLt; omega⟩

/-- Entry (p, q) of the output's block at point t sits at (5000·t + p, q) in the array. -/
theorem out_index (t : Fin cfg0.N) (p : Fin 5000) (q : Fin 128) :
    (((cfg0.win 3).blk t).view.emb (ix2 p q) : S100000x128.Idx) = ix2 (rowAt t p) q := by
  obtain ⟨-, -, -, -, -, -, e0, e1⟩ := index_facts t
  funext a; apply Fin.ext
  match a with
  | ⟨0, _⟩ => show win0_3.index t (0 : Fin 2) * 5000 + 1 * p.val = t.val * 5000 + p.val; omega
  | ⟨1, _⟩ => show win0_3.index t (1 : Fin 2) * 128 + 1 * q.val = q.val; omega

/-- x's block at point t, entry (p, k): the array's entry (5000·t + p, k). -/
theorem x_block_at (c : Dev nD) (t : Fin cfg0.N) (p : Fin 5000) (k : Fin 128) :
    (iblk0 V c 0 t : Vec Ideal S5000x128 .f32) (ix2 p k) = (V c main_arg0 : S100000x128.Idx → EReal) (ix2 (rowAt t p) k) := by
  obtain ⟨e0, e1, -⟩ := index_facts t
  show (V c main_arg0 : S100000x128.Idx → EReal) (((cfg0.win 0).blk t).view.emb (ix2 p k)) = _
  refine congrArg _ ?_
  funext a; apply Fin.ext
  match a with
  | ⟨0, _⟩ => show win0_0.index t (0 : Fin 2) * 5000 + 1 * p.val = t.val * 5000 + p.val; omega
  | ⟨1, _⟩ => show win0_0.index t (1 : Fin 2) * 128 + 1 * k.val = k.val; omega

/-- The per-node factor's block at point t, entry (p, q): the array's entry (5000·t + p, q). -/
theorem dv_block_at (c : Dev nD) (t : Fin cfg0.N) (p : Fin 5000) (q : Fin 128) :
    (iblk0 V c 1 t : Vec Ideal S5000x128 .f32) (ix2 p q) = (V c main_v16 : S100000x128.Idx → EReal) (ix2 (rowAt t p) q) := by
  obtain ⟨-, -, e0, e1, -⟩ := index_facts t
  show (V c main_v16 : S100000x128.Idx → EReal) (((cfg0.win 1).blk t).view.emb (ix2 p q)) = _
  refine congrArg _ ?_
  funext a; apply Fin.ext
  match a with
  | ⟨0, _⟩ => show win0_1.index t (0 : Fin 2) * 5000 + 1 * p.val = t.val * 5000 + p.val; omega
  | ⟨1, _⟩ => show win0_1.index t (1 : Fin 2) * 128 + 1 * q.val = q.val; omega

/-- The weight matrix's block at every point is the whole matrix. -/
theorem w_block_at (c : Dev nD) (t : Fin cfg0.N) (k : Fin 128) (q : Fin 128) :
    (iblk0 V c 2 t : Vec Ideal S128x128 .f32) (ix2 k q) = (V c main_arg2 : S128x128.Idx → EReal) (ix2 k q) := by
  obtain ⟨-, -, -, -, e0, e1, -⟩ := index_facts t
  show (V c main_arg2 : S128x128.Idx → EReal) (((cfg0.win 2).blk t).view.emb (ix2 k q)) = _
  refine congrArg _ ?_
  funext a; apply Fin.ext
  match a with
  | ⟨0, _⟩ => show win0_2.index t (0 : Fin 2) * 128 + 1 * k.val = k.val; omega
  | ⟨1, _⟩ => show win0_2.index t (1 : Fin 2) * 128 + 1 * q.val = q.val; omega

/-! ## From the blocks to the array -/

/-- What point t writes back is block t of `scaled` of the three arrays as the region finds them. -/
theorem flushed_eq (c : Dev nD) (t : Fin cfg0.N) :
    (dat0 (F := Ideal) V c).flushed 3 t
      = ((cfg0.win 3).blk t).view.read (Elt Ideal) (scaled (V c main_arg0) (V c main_v16) (V c main_arg2)) := by
  show (cfg0.win 3).cut (grid0.coords t) ((dat0 (F := Ideal) V c).after 3 t) = _
  rw [after0_3]
  unfold out0_3
  rw [View.canon_unit_zero zeros_eq]
  simp only [View.ld_unit_zero (S := S5000x128) zeros_eq, View.ld_unit_zero (S := S128x128) zeros_eq]
  funext j
  obtain ⟨p, q, rfl⟩ : ∃ (p : Fin 5000) (q : Fin 128), j = ix2 p q := ⟨j 0, j 1, eq_ix2 j⟩
  show k0_pay1 (F := Ideal) (iblk0 V c 0 t) (iblk0 V c 2 t) (iblk0 V c 1 t) (ix2 p q)
    = scaled (V c main_arg0) (V c main_v16) (V c main_arg2) (((cfg0.win 3).blk t).view.emb (ix2 p q))
  rw [payload_at, out_index t p q, dv_block_at V c t p q]
  unfold scaled xw
  rw [row_ix2, col_ix2]
  refine congrArg (· * _) (Finset.sum_congr rfl fun k _ => ?_)
  rw [x_block_at V c t p k, w_block_at V c t k q]

/-- An index of the array is in point t's block iff each coordinate is in the block's range on its axis. -/
theorem mem_block (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v17).slice (win0_3.rect t)).set ↔ _
  rw [View.set_slice_whole, Rect.mem_set_unit]
  exact Iff.rfl

/-- Every entry of the array is in some point's block: row r is in the block of point r / 5000. -/
theorem covered (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, -, -, e0, e1⟩ := index_facts t
  refine ⟨t, flush0_3 t, ?_⟩
  rw [mem_block]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The output array after the region: `scaled` of x, the per-node factor and the weight matrix as the region finds them. -/
theorem final0 (c : Dev nD) :
    (dat0 (F := Ideal) V c).arrAt 3 cfg0.N = scaled (V c main_arg0) (V c main_v16) (V c main_arg2) :=
  (dat0 (F := Ideal) V c).arrAt_eq_of_cover 3 (scaled (V c main_arg0) (V c main_v16) (V c main_arg2))
    (fun t _ => flushed_eq V c t) covered

end Cert.KernelIdeal.Region0

end
-- ==== Proof.Region1.lean ====
/-
  The second kernel region, read as one function of whole arrays.  The grid has 20 points; point t works on rows
  5000·t … 5000·t + 4999 of the [100000,128] arrays.  At entry (p, q) of its block the body forms
  s[p,q] · dv[p,q] + b[0,q]: the aggregated messages times the per-node factor, plus the bias row laid along every
  row.  Every operand block sits at the same rows as the output block, the bias row is read whole at every point, and
  the 20 row blocks tile the array; hence the output array ends as `finalized s dv b`, entry by entry.
-/
import proofs.«163717_j34591666602118_1_alg».proof.Proof.Gen.KernelIdeal.Frame
import proofs.«163717_j34591666602118_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Cert.KernelIdeal Cert.KernelIdeal.Gen Cert.GcnSpec Idealize.ShloMosaic Idealize.ShloMosaic.ValueIdx Idealize.ShloMosaic.TcCoe Idealize.SL.Sem
open Idealize.ShloMosaic.Pipeline (Dat)

namespace Cert.KernelIdeal.Region1

variable (V : (c : Dev nD) → (b : Ref sig .tc) → Buf (Elt Ideal) ((c : Thread nD τ).loc b))

/-- The offsets of a rectangle that starts at the origin, as the constant-zero function. -/
theorem zero_offsets : (![0, 0] : Fin 2 → Nat) = fun _ => 0 := funext fun a => by fin_cases a <;> rfl

/-- The body's value at entry (p, q) of a block: the product of the two [5000,128] operands there plus the one-row
    operand at column q.  The casts to the same shape are identities and the row broadcast reads row 0. -/
theorem payload_apply (b : Vec Ideal S1x128 .f32) (s dv : Vec Ideal S5000x128 .f32) (p : Fin 5000) (q : Fin 128) :
    k1_pay1 b s dv (ix2 p q) = s (ix2 p q) * dv (ix2 p q) + b (ix2 (0 : Fin 1) q) := by
  unfold k1_pay1
  simp only [addf_apply, mulf_apply, shapeCast_self, broadcastTo_1b_ab_apply]

/-- The block indices at grid point t: the three [5000,128] windows are at row block t, column block 0; the bias
    window is at block (0, 0) at every point. -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What grid point t writes back is block t of `finalized s dv b`: entry (p, q) of the block is array entry
    (5000·t + p, q), where both [5000,128] operand blocks were read, and the bias block is the whole bias row. -/
theorem written_back_eq (c : Dev nD) (t : Fin cfg1.N) :
    (dat1 (F := Ideal) V c).flushed 3 t
      = ((cfg1.win 3).blk t).view.read (Elt Ideal) (finalized (V c main_v27) (V c main_v16) (V c main_v28)) := by
  show (cfg1.win 3).cut (grid1.coords t) ((dat1 (F := Ideal) V c).after 3 t) = _
  rw [after1_3]
  unfold out1_3
  rw [View.canon_unit_zero zero_offsets]
  simp only [View.ld_unit_zero (S := S5000x128) zero_offsets, View.ld_unit_zero (S := S1x128) zero_offsets]
  obtain ⟨e00, e01, e10, e11, e20, e21, e30, e31⟩ := block_indices t
  funext j
  obtain ⟨p, q, rfl⟩ : ∃ (p : Fin 5000) (q : Fin 128), j = ix2 p q := ⟨j 0, j 1, eq_ix2 j⟩
  show k1_pay1 (iblk1 V c 2 t) (iblk1 V c 0 t) (iblk1 V c 1 t) (ix2 p q)
    = finalized (V c main_v27) (V c main_v16) (V c main_v28) (((cfg1.win 3).blk t).view.emb (ix2 p q))
  rw [payload_apply]
  unfold finalized
  -- a block's coordinate in the array is (block index) × (block size) + 1 × (coordinate inside the block), per axis
  have h0 : ((cfg1.win 0).blk t).view.emb (ix2 p q) = ((cfg1.win 3).blk t).view.emb (ix2 p q) := by
    funext a; apply Fin.ext
    match a with
    | ⟨0, _⟩ => show win1_0.index t (0 : Fin 2) * 5000 + 1 * p.val = win1_3.index t (0 : Fin 2) * 5000 + 1 * p.val; omega
    | ⟨1, _⟩ => show win1_0.index t (1 : Fin 2) * 128 + 1 * q.val = win1_3.index t (1 : Fin 2) * 128 + 1 * q.val; omega
  have h1 : ((cfg1.win 1).blk t).view.emb (ix2 p q) = ((cfg1.win 3).blk t).view.emb (ix2 p q) := by
    funext a; apply Fin.ext
    match a with
    | ⟨0, _⟩ => show win1_1.index t (0 : Fin 2) * 5000 + 1 * p.val = win1_3.index t (0 : Fin 2) * 5000 + 1 * p.val; omega
    | ⟨1, _⟩ => show win1_1.index t (1 : Fin 2) * 128 + 1 * q.val = win1_3.index t (1 : Fin 2) * 128 + 1 * q.val; omega
  -- the bias row at column q is the bias row at the column of array entry (5000·t + p, q)
  have h2 : ((cfg1.win 2).blk t).view.emb (ix2 (0 : Fin 1) q)
      = ix2 (0 : Fin 1) (col (((cfg1.win 3).blk t).view.emb (ix2 p q))) := by
    funext a; apply Fin.ext
    match a with
    | ⟨0, _⟩ => show win1_2.index t (0 : Fin 2) * 1 + 1 * 0 = 0; omega
    | ⟨1, _⟩ => show win1_2.index t (1 : Fin 2) * 128 + 1 * q.val = win1_3.index t (1 : Fin 2) * 128 + 1 * q.val; omega
  have r0 : (iblk1 V c 0 t : Vec Ideal S5000x128 .f32) (ix2 p q)
      = (V c main_v27 : SNM.Idx → EReal) (((cfg1.win 3).blk t).view.emb (ix2 p q)) := by
    show (V c main_v27 : SNM.Idx → EReal) (((cfg1.win 0).blk t).view.emb (ix2 p q)) = _
    rw [h0]
  have r1 : (iblk1 V c 1 t : Vec Ideal S5000x128 .f32) (ix2 p q)
      = (V c main_v16 : SNM.Idx → EReal) (((cfg1.win 3).blk t).view.emb (ix2 p q)) := by
    show (V c main_v16 : SNM.Idx → EReal) (((cfg1.win 1).blk t).view.emb (ix2 p q)) = _
    rw [h1]
  have r2 : (iblk1 V c 2 t : Vec Ideal S1x128 .f32) (ix2 (0 : Fin 1) q)
      = (V c main_v28 : S1M.Idx → EReal) (ix2 (0 : Fin 1) (col (((cfg1.win 3).blk t).view.emb (ix2 p q)))) := by
    show (V c main_v28 : S1M.Idx → EReal) (((cfg1.win 2).blk t).view.emb (ix2 (0 : Fin 1) q)) = _
    rw [h2]
  rw [r0, r1, r2]

/-- An entry of the array lies in point t's output block iff, on each axis, its coordinate is within the block's
    range there. -/
theorem mem_block (t : Fin cfg1.N) (i : S100000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v29).slice (win1_3.rect t)).set ↔ _
  rw [View.set_slice_whole, Rect.mem_set_unit]
  exact Iff.rfl

/-- The 20 row blocks tile the array: entry (r, q) lies in the block of point r / 5000, which is written back. -/
theorem covered (i : S100000x128.Idx) :
    ∃ t : Fin cfg1.N, (cfg1.win 3).flush t = true ∧ i ∈ ((cfg1.win 3).blk t).view.set := by
  have hi0 : (i 0).val < 100000 := idx2_lt0 i
  have hi1 : (i 1).val < 128 := idx2_lt1 i
  have hlt : (i 0).val / 5000 < 20 := by omega
  obtain ⟨t, ht⟩ : ∃ t : Fin cfg1.N, t.val = (i 0).val / 5000 := ⟨⟨(i 0).val / 5000, hlt⟩, rfl⟩
  obtain ⟨-, -, -, -, -, -, e30, e31⟩ := block_indices t
  refine ⟨t, flush1_3 t, ?_⟩
  rw [mem_block]
  intro a
  match a with
  | ⟨0, _⟩ =>
    show win1_3.index t (0 : Fin 2) * 5000 ≤ (i 0).val ∧ (i 0).val < win1_3.index t (0 : Fin 2) * 5000 + 5000
    omega
  | ⟨1, _⟩ =>
    show win1_3.index t (1 : Fin 2) * 128 ≤ (i 1).val ∧ (i 1).val < win1_3.index t (1 : Fin 2) * 128 + 128
    omega

/-- The output array after the region: `finalized` of the three input arrays as the region finds them. -/
theorem final1 (c : Dev nD) :
    (dat1 (F := Ideal) V c).arrAt 3 cfg1.N = finalized (V c main_v27) (V c main_v16) (V c main_v28) :=
  (dat1 (F := Ideal) V c).arrAt_eq_of_cover 3 (finalized (V c main_v27) (V c main_v16) (V c main_v28))
    (fun t _ => written_back_eq V c t) covered

end Cert.KernelIdeal.Region1

end
-- ==== Proof.KValue.lean ====
/-
  The kernel program's result array as one function of the argument arrays.
  Reading the buffers boundary by boundary: the first region leaves `(x · W) · dinv` (entry by entry, `dinv` laid along
  rows); the host stretch after it gathers those rows at the edge sources and adds them at the edge targets; the
  second region scales the sums by `dinv` again and adds the bias row.
-/
import proofs.«163717_j34591666602118_1_alg».proof.Proof.KHost
import proofs.«163717_j34591666602118_1_alg».proof.Proof.Region0
import proofs.«163717_j34591666602118_1_alg».proof.Proof.Region1
import proofs.«163717_j34591666602118_1_alg».proof.Proof.Spec

set_option maxRecDepth 16384

noncomputable section

namespace Cert.KernelIdeal.ResultValue

open Cert.KernelIdeal Cert.KernelIdeal.Gen Cert.KernelIdeal.HostValue Cert.GcnSpec
open Idealize.ShloMosaic Idealize.ShloMosaic.TcCoe Idealize.SL.Sem

/-- The result as a function of the features `x`, the edge list `e`, the weights `w` and the bias `b`. -/
def kOut (x : FVec Ideal S100000x128 .f32) (e : IVec S2x1600000 32) (w : FVec Ideal S128x128 .f32) (b : FVec Ideal S128 .f32) :
    S100000x128.Idx → EReal :=
  finalized (aggV (F := Ideal) (scaled x (dinvB (F := Ideal) e) w) e) (dinvB (F := Ideal) e) (biasRow (F := Ideal) b)

variable (m : (ℓ : Loc nD τ sig) → Buf (Elt Ideal) ℓ) (ρ : Dev nD → PrngReg)

/-- At the last boundary the result buffer holds `kOut` of the launch contents of the four arguments. -/
theorem W6_result (c : Dev nD) :
    W6 m ρ c (Proc.devRef .tc main_v29)
      = kOut (m ((c : Thread nD τ).loc main_arg0)) (m ((c : Thread nD τ).loc main_arg1))
          (m ((c : Thread nD τ).loc main_arg2)) (m ((c : Thread nD τ).loc main_arg3)) := by
  have e0 : V3 m ρ c main_arg0 = m ((c : Thread nD τ).loc main_arg0) := W3_x m ρ c
  have e1 : V3 m ρ c main_v16 = dinvB (F := Ideal) (m ((c : Thread nD τ).loc main_arg1)) := W3_dinvB m ρ c
  have e2 : V3 m ρ c main_arg2 = m ((c : Thread nD τ).loc main_arg2) := W3_w m ρ c
  have h17 : W4 m ρ c (Proc.devRef .tc main_v17)
      = scaled (m ((c : Thread nD τ).loc main_arg0)) (dinvB (F := Ideal) (m ((c : Thread nD τ).loc main_arg1)))
          (m ((c : Thread nD τ).loc main_arg2)) := by
    refine (W4_arr m ρ c 3).trans ?_
    rw [Cert.KernelIdeal.Region0.final0 (V3 m ρ) c, e0, e1, e2]
  have f0 : V5 m ρ c main_v27
      = aggV (F := Ideal) (W4 m ρ c (Proc.devRef .tc main_v17)) (m ((c : Thread nD τ).loc main_arg1)) := W5_agg m ρ c
  have f1 : V5 m ρ c main_v16 = dinvB (F := Ideal) (m ((c : Thread nD τ).loc main_arg1)) := W5_dinvB m ρ c
  have f2 : V5 m ρ c main_v28 = biasRow (F := Ideal) (m ((c : Thread nD τ).loc main_arg3)) := W5_bias m ρ c
  refine (W6_arr m ρ c 3).trans ?_
  rw [Cert.KernelIdeal.Region1.final1 (V5 m ρ) c, f0, f1, f2, h17]
  rfl

end Cert.KernelIdeal.ResultValue

end
-- ==== Proof.LibEReal.lean ====
/-
  Two facts about extended reals used to move a per-node normalisation factor across a neighbourhood sum.
  Multiplication does not distribute over addition on the extended reals in general (∞ − ∞), but it does when the
  factor is a nonnegative finite number; and a reciprocal square root guarded by "the argument is positive, else 0"
  is always such a number.
-/
import Idealize.ShloMosaic.PureOps.Ideal
import Idealize.ShloMosaic.PureOps.Ideal.Laws
import Idealize.ShloMosaic.Lib.ValueIdx
import Mathlib.Data.EReal.Operations

noncomputable section

open scoped BigOperators

namespace Cert.LibEReal

open Idealize.ShloMosaic Idealize.ShloMosaic.ValueIdx

/-- A finite sum of extended reals times a nonnegative finite factor is the sum of the products: right distributivity,
    which holds for such a factor, carried along the sum. -/
theorem sum_mul_of_nonneg_of_ne_top {ι : Type} (s : Finset ι) (f : ι → EReal) {d : EReal} (h0 : 0 ≤ d) (ht : d ≠ ⊤) :
    (∑ j ∈ s, f j) * d = ∑ j ∈ s, f j * d := by
  classical
  induction s using Finset.induction_on with
  | empty => simp
  | insert a s ha ih =>
    rw [Finset.sum_insert ha, Finset.sum_insert ha, EReal.right_distrib_of_nonneg_of_ne_top h0 ht, ih]

/-- A sum whose every term carries the same nonnegative finite factor `d`, plus `b`: the factor comes out of the sum.
    (The two `0 +` are the zero array an accumulating scatter starts from.) -/
theorem sum_factor {ι : Type} (s : Finset ι) (f g : ι → EReal) {d : EReal} (b : EReal) (h0 : 0 ≤ d) (ht : d ≠ ⊤)
    (hfg : ∀ j ∈ s, f j = g j * d) : (0 + ∑ j ∈ s, f j) + b = (0 + ∑ j ∈ s, g j) * d + b := by
  rw [zero_add, zero_add, sum_mul_of_nonneg_of_ne_top s g h0 ht, Finset.sum_congr rfl hfg]

/-- The host's accumulating scatter read at an index, on the extended reals: the operand's entry plus the sum of the
    updates whose result index is that entry; an update landing outside the operand contributes nothing. -/
theorem scatterAdd_apply {s si su : Shape} (d : ScatterDims s si su) {w : Nat} (x : FVec Ideal s .f32) (idx : IVec si w)
    (upd : FVec Ideal su .f32) (i : s.Idx) :
    Host.scatterAdd (F := Ideal) d x idx upd i
      = x i + ∑ j ∈ Finset.univ.filter (fun j => d.resultIdx? j idx = some i), upd j := rfl

/-- `x > 0 ? x^(-1/2) : 0` is a nonnegative finite number for every extended real `x`: at a positive real it is the
    real `1/√x`, at +∞ it is 0, and everywhere else the guard picks 0. -/
theorem guarded_rsqrt (x : EReal) :
    0 ≤ Scalar.select (Ideal.cmp .ogt x 0) (Ideal.rsqrt x) 0
      ∧ Scalar.select (Ideal.cmp .ogt x 0) (Ideal.rsqrt x) 0 ≠ ⊤ := by
  by_cases h : (0 : EReal) < x
  · have hc : Ideal.cmp .ogt x 0 = 1#1 := by
      unfold Ideal.cmp
      simp [h]
    rw [hc, select_one]
    induction x using EReal.rec with
    | bot => exact absurd h (by simp)
    | top => exact ⟨le_of_eq rfl, EReal.zero_ne_top⟩
    | coe r =>
      have hr : 0 < r := by exact_mod_cast h
      have e : Ideal.rsqrt (r : EReal) = (((Real.sqrt r)⁻¹ : ℝ) : EReal) := by
        show (if r < 0 then ⊥ else if r = 0 then ⊤ else (((Real.sqrt r)⁻¹ : ℝ) : EReal)) = _
        rw [if_neg (not_lt.mpr hr.le), if_neg hr.ne']
      rw [e]
      exact ⟨by exact_mod_cast inv_nonneg.mpr (Real.sqrt_nonneg r), EReal.coe_ne_top _⟩
  · have hc : Ideal.cmp .ogt x 0 = 0#1 := by
      unfold Ideal.cmp
      simp [h]
    rw [hc, select_zero]
    exact ⟨le_refl _, EReal.zero_ne_top⟩

end Cert.LibEReal

end
-- ==== Proof.LibGatherScatter.lean ====
/-
  Row gather and row scatter of a rank-2 table, read at one index.

  jnp's `table[idx]` over an [N × M] table with an [n × 1] column of row numbers is a `stablehlo.gather` whose operand
  axis 0 is collapsed and start-indexed and whose operand axis 1 is the one offset axis: result element (p, q) is the
  table's element (r, q), r the row number at position p read signed and clamped into [0, N − 1].
  jnp's `zeros.at[idx].add(updates)` is the `stablehlo.scatter` with the mirrored dimension numbers: update element
  (p, q) lands at (r, q), r the row number at position p read signed and NOT clamped, and is dropped when r is outside
  [0, N). Both facts are stated at any extents.
-/
import Idealize.ShloMosaic.Lib.StableHlo.Predicate
import Idealize.ShloMosaic.Lib.ValueIdx

namespace Cert.LibGatherScatter

open Idealize.ShloMosaic Idealize.ShloMosaic.ValueIdx Idealize.ShloMosaic.StableHlo.Predicate

/-- An entry of a one-element list is that element. -/
theorem getElem_of_eq_singleton {β : Type} (l : List β) (a : β) (hl : l = [a]) (k : Nat) (hk : k < l.length) :
    l[k]'hk = a := by
  subst hl
  have hk0 : k = 0 := by simpa using hk
  subst hk0
  rfl

/-- An axis of a rank-2 shape is axis 0 or axis 1. -/
theorem fin2_cases (a : Fin 2) : a = 0 ∨ a = 1 := by
  revert a; decide

/-- THE ROW GATHER. Over an [N × M] table and an [n × 1] column of start indices, with operand axis 0 collapsed and
    start-indexed, operand axis 1 the one offset axis, no batching axes and the index vector on axis 1 of the start
    indices, result element (p, q) is the table's element (r, q) where r is the start index at row p read as a signed
    integer and clamped into [0, N − 1] (the slice on a collapsed axis has size 1): a negative index reads row 0, one
    past the end reads row N − 1. On axis 1 the start is 0 and the offset coordinate is q. -/
theorem gather_rows {α : Type} {N M n w : Nat} (d : GatherDims ⟨2, ![N, M]⟩ ⟨2, ![n, 1]⟩ ⟨2, ![n, M]⟩)
    (hoff : d.offsetDims = [1]) (hcoll : d.collapsedSliceDims = [0]) (hob : d.operandBatchingDims = [])
    (hsim : d.startIndexMap = [0]) (hivd : d.indexVectorDim = 1)
    (x : (⟨2, ![N, M]⟩ : Shape).Idx → α) (idx : IVec ⟨2, ![n, 1]⟩ w) (p : Fin n) (q : Fin M) (hN : 0 < N) :
    Host.gather d x idx (ix2 p q) = x (ix2 ⟨min (idx (ixP p)).toInt.toNat (N - 1), by omega⟩ q) := by
  unfold Host.gather
  congr 1
  funext a
  have hb : ∀ a : Fin 2, a ∉ d.operandBatchingDims := fun a => by rw [hob]; exact List.not_mem_nil
  have hbd : d.batchDims = [0] := by
    show Shape.kept _ d.offsetDims = [0]
    rw [hoff]; rfl
  have hsk : d.sKept = [1] := by
    show Shape.kept _ (d.collapsedSliceDims ++ d.operandBatchingDims) = [1]
    rw [hcoll, hob]; rfl
  apply Fin.ext
  rcases fin2_cases a with rfl | rfl
  · have hk : (0 : Fin 2) ∉ d.sKept := by rw [hsk]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    simp only [GatherDims.operandIdx, GatherDims.batchCoord_eq_zero _ _ _ (hb _), GatherDims.offCoord_eq_zero _ _ _ hk,
      Nat.add_zero, GatherDims.start, dif_pos hm]
    show min (idx _).toInt.toNat (N - d.sliceSizes 0) = min (idx (ixP p)).toInt.toNat (N - 1)
    rw [hsl]
    congr 3
    congr 1
    funext b
    rcases fin2_cases b with rfl | rfl
    · unfold GatherDims.siIdx
      rw [dif_neg (by rw [hivd]; simp)]
      unfold GatherDims.siCoord
      apply Fin.ext
      simp only [Fin.val_cast]
      have e0 : ∀ X : Fin 2, X = 0 → ((ix2 p q : (⟨2, ![n, M]⟩ : Shape).Idx) X).val = p.val := fun X hX => by
        subst hX; rfl
      exact e0 _ (getElem_of_eq_singleton _ _ hbd _ _)
    · unfold GatherDims.siIdx
      rw [dif_pos (by rw [hivd]; rfl)]
      apply Fin.ext
      show List.idxOf (0 : Fin 2) d.startIndexMap = 0
      rw [hsim]; simp
  · have hk : (1 : Fin 2) ∈ d.sKept := by rw [hsk]; simp
    have hm : (1 : Fin 2) ∉ d.startIndexMap := by rw [hsim]; simp
    simp only [GatherDims.operandIdx, GatherDims.batchCoord_eq_zero _ _ _ (hb _),
      Nat.add_zero, GatherDims.start, dif_neg hm, Nat.zero_add, GatherDims.offCoord, dif_pos hk]
    have e1 : ∀ X : Fin 2, X = 1 → ((ix2 p q : (⟨2, ![n, M]⟩ : Shape).Idx) X).val = q.val := fun X hX => by
      subst hX; rfl
    exact e1 _ (getElem_of_eq_singleton _ _ hoff _ _)

/-- THE ROW SCATTER'S TARGET. Over an [N × M] operand, an [n × 1] column of scatter indices and [n × M] updates, with
    update axis 1 the one window axis, operand axis 0 inserted and named by the scatter index, and the index vector on
    axis 1 of the scatter indices: if update element (p, q) lands at operand index i, then the scatter index at row p,
    read as a signed integer, IS i's row (it is not clamped: it lies in [0, N) because the update landed), and i's column
    is q. On axis 0 the start is the signed index and the window coordinate 0; on axis 1 the start is 0 and the window
    coordinate q. -/
theorem scatter_rows_resultIdx {N M n w : Nat} (d : ScatterDims ⟨2, ![N, M]⟩ ⟨2, ![n, 1]⟩ ⟨2, ![n, M]⟩)
    (huw : d.updateWindowDims = [1]) (hiw : d.insertedWindowDims = [0]) (hsd : d.scatterDimsToOperandDims = [0])
    (hivd : d.indexVectorDim = 1) (idx : IVec ⟨2, ![n, 1]⟩ w) (p : Fin n) (q : Fin M)
    (i : (⟨2, ![N, M]⟩ : Shape).Idx) (h : d.resultIdx? (ix2 p q) idx = some i) :
    (idx (ixP p)).toInt = ((i 0).val : Int) ∧ q.val = (i 1).val := by
  have hus : d.uScatter = [0] := by
    show Shape.kept _ d.updateWindowDims = [0]
    rw [huw]; rfl
  have hsk : d.sKept = [1] := by
    show Shape.kept _ d.insertedWindowDims = [1]
    rw [hiw]; rfl
  -- the start on axis 0 is the index word of row p read signed; on axis 1 it is 0
  have hs0 : d.start (ix2 p q) idx 0 = (idx (ixP p)).toInt := by
    have hm : (0 : Fin 2) ∈ d.scatterDimsToOperandDims := by rw [hsd]; exact List.mem_singleton.mpr rfl
    unfold ScatterDims.start
    rw [dif_pos hm]
    congr 2
    funext b
    rcases fin2_cases b with rfl | rfl
    · unfold ScatterDims.siIdx
      rw [dif_neg (by rw [hivd]; simp)]
      unfold ScatterDims.siCoord
      apply Fin.ext
      simp only [Fin.val_cast]
      have e0 : ∀ X : Fin 2, X = 0 → ((ix2 p q : (⟨2, ![n, M]⟩ : Shape).Idx) X).val = p.val := fun X hX => by
        subst hX; rfl
      exact e0 _ (getElem_of_eq_singleton _ _ hus _ _)
    · unfold ScatterDims.siIdx
      rw [dif_pos (by rw [hivd]; rfl)]
      apply Fin.ext
      show List.idxOf (0 : Fin 2) d.scatterDimsToOperandDims = 0
      rw [hsd]; simp
  have hs1 : d.start (ix2 p q) idx 1 = 0 := by
    have hm : (1 : Fin 2) ∉ d.scatterDimsToOperandDims := by rw [hsd]; simp
    unfold ScatterDims.start
    rw [dif_neg hm]
  have hw0 : d.window (ix2 p q) 0 = 0 := by
    have hk : (0 : Fin 2) ∉ d.sKept := by rw [hsk]; simp
    unfold ScatterDims.window
    rw [dif_neg hk]
  have hw1 : d.window (ix2 p q) 1 = q.val := by
    have hk : (1 : Fin 2) ∈ d.sKept := by rw [hsk]; simp
    unfold ScatterDims.window
    rw [dif_pos hk]
    have e1 : ∀ X : Fin 2, X = 1 → ((ix2 p q : (⟨2, ![n, M]⟩ : Shape).Idx) X).val = q.val := fun X hX => by
      subst hX; rfl
    exact e1 _ (getElem_of_eq_singleton _ _ huw _ _)
  unfold ScatterDims.resultIdx? at h
  split at h
  · next hall =>
    have hi := Option.some.inj h
    have h0 : ((d.start (ix2 p q) idx 0 + d.window (ix2 p q) 0).toNat) = (i 0).val :=
      congrArg (fun f : (⟨2, ![N, M]⟩ : Shape).Idx => (f 0).val) hi
    have h1 : ((d.start (ix2 p q) idx 1 + d.window (ix2 p q) 1).toNat) = (i 1).val :=
      congrArg (fun f : (⟨2, ![N, M]⟩ : Shape).Idx => (f 1).val) hi
    have hge := (hall 0).1
    rw [hs0, hw0] at h0 hge
    rw [hs1, hw1] at h1
    constructor
    · omega
    · omega
  · exact absurd h (by simp)

end Cert.LibGatherScatter
-- ==== Proof.RefForm.lean ====
/-
  The reference's result, read at one entry, in the shape the kernel computes it.
  The reference forms, for every edge `u → v` (self-loops included), the message `h[u] · (dinv[u] · dinv[v])` and adds
  the messages at their targets; entry (p, q) of the result is the sum, over the edges whose target is p, of
  `h[u, q] · (dinv[u] · dinv[v])`, plus the bias `b[q]`.  On every edge of that sum `v = p`: the scatter keeps an update
  only when its target row number, read signed, is p itself, and then neither the wrap of negative row numbers nor
  the gather's clamp moves it.  So `dinv[v] = dinv[p]` is one factor of every term, nonnegative and finite, and comes
  out of the sum: the result is `(Σ h[u, q] · dinv[u]) · dinv[p] + b[q]`, the sum being the aggregation of the rows of
  `h · dinv` — what the kernel's first region leaves — and the rest what its second region computes.
-/
import proofs.«163717_j34591666602118_1_alg».proof.Proof.RefRead
import proofs.«163717_j34591666602118_1_alg».proof.Proof.Spec
import proofs.«163717_j34591666602118_1_alg».proof.Proof.LibEReal
import proofs.«163717_j34591666602118_1_alg».proof.Proof.LibGatherScatter
import Idealize.ShloMosaic.Lib.StableHlo.Predicate
import Idealize.ShloMosaic.Lib.ValueIdx
import Idealize.ShloMosaic.PureOps.Ideal.Laws

set_option maxRecDepth 16384

noncomputable section

open scoped BigOperators

namespace Cert.ReferenceIdeal.Form

open Cert.ReferenceIdeal Cert.ReferenceIdeal.Gen Cert.ReferenceIdeal.Read Cert.GcnSpec Cert.LibEReal Cert.LibGatherScatter
open Idealize.ShloMosaic Idealize.ShloMosaic.ValueIdx Idealize.ShloMosaic.StableHlo.Predicate

/-- The row scatter of the aggregation, the row gather of the features, the take of the per-node factor. -/
abbrev dS := scatter_S100000x128_S1700000x1_S1700000x128_1_0_0_1
abbrev gR := gather_S100000x128_S1700000x1_S1700000x128_1_0_n_n_0_1_1128
abbrev gT := gather_S100000_S1700000x1_S1700000_n_0_n_n_0_1_1

/-- A signed row number clamped into [0, N − 1], as a gather clamps its start index. -/
def clampN (v : BitVec 32) : Fin 100000 := ⟨min v.toInt.toNat (100000 - 1), by omega⟩

/-- A rank-1 index is determined by its one coordinate. -/
theorem ofFin_ext {n : Nat} (i : (⟨1, ![n]⟩ : Shape).Idx) (k : Fin n) (h : (i 0).val = k.val) : i = Shape.Idx.ofFin k := by
  funext a; obtain rfl : a = 0 := Subsingleton.elim _ _; exact Fin.ext h

theorem ij_eq_ix2 {n m : Nat} (p : Fin n) (q : Fin m) : ij p q = ix2 p q := by
  funext a; match a with | ⟨0, _⟩ => rfl | ⟨1, _⟩ => rfl

/-- The row gather read at (k, q): the table's row at the clamped row number `k` names, column q. -/
theorem gatherRows_apply (x : S100000x128.Idx → EReal) (idx : IVec S1700000x1 32) (k : Fin 1700000) (q : Fin 128) :
    Host.gather gR x idx (ix2 k q) = x (ix2 (clampN (idx (ixP k))) q) :=
  gather_rows gR rfl rfl rfl rfl rfl x idx k q (by omega)

/-- The take read at k: the vector at the clamped row number `k` names. -/
theorem take_apply (x : S100000.Idx → EReal) (idx : IVec S1700000x1 32) (k : Fin 1700000) :
    Host.gather gT x idx (Shape.Idx.ofFin k) = x (Shape.Idx.ofFin (clampN (idx (ixP k)))) :=
  gather_take gT rfl rfl rfl rfl x idx k (by omega)

/-- An update the row scatter keeps at node p has row number p, read signed. -/
theorem kept_toInt (idx : IVec S1700000x1 32) (k : Fin 1700000) (q' : Fin 128) (p : Fin 100000) (q : Fin 128)
    (h : dS.resultIdx? (ix2 k q') idx = some (ix2 p q)) : (idx (ixP k)).toInt = (p.val : Int) :=
  (scatter_rows_resultIdx dS rfl rfl rfl rfl idx k q' (ix2 p q) h).1

variable (x0 : FVec Ideal S100000x128 .f32) (e : IVec S2x1600000 32) (x2 : FVec Ideal S128x128 .f32) (x3 : FVec Ideal S128 .f32)

/-- The per-node factor `deg > 0 ? deg^(-1/2) : 0` is a nonnegative finite number at every node. -/
theorem dinv_good (n : S100000.Idx) :
    0 ≤ val_main_v14 (F := Ideal) e n ∧ val_main_v14 (F := Ideal) e n ≠ ⊤ := by
  rw [val_main_v14_apply, val_main_v12_apply, val_main_v13_apply, val_main_call0_v1_apply, val_main_call0_v0_apply,
    val_main_cst_2_apply, val_main_v11_apply, val_main_cst_1_apply]
  simp only [Ideal.cmpf_def, Ideal.hostUnary_rsqrt_def, Ideal.ofBits_def, Ideal.ofBits_zero_f32]
  exact guarded_rsqrt _

/-- The bias laid along every row reads the bias at the column. -/
theorem bias_apply (p : Fin 100000) (q : Fin 128) :
    val_main_v45 (F := Ideal) x3 (ix2 p q) = x3 (Shape.Idx.ofFin q) := by
  rw [val_main_v45_apply, val_main_v44_apply]
  exact congrArg x3 (ofFin_ext _ _ rfl)

/-- The scatter's initial array is zero. -/
theorem zeros_apply (i : S100000x128.Idx) : val_main_v41 (F := Ideal) i = 0 := by
  rw [val_main_v41_apply, val_main_cst_8_apply, Ideal.ofBits_def, Ideal.ofBits_zero_f32]

/-- The targets' column at row `k` is the target of edge `k`. -/
theorem dstcol_apply (k : Fin 1700000) : val_main_v42 (F := Ideal) e (ixP k) = val_main_v6 (F := Ideal) e (Shape.Idx.ofFin k) := by
  rw [val_main_v42_apply]
  exact congrArg _ (ofFin_ext _ _ rfl)

/-- The message of edge `k` at feature `q`: the source's transformed feature times the two endpoints' factors, each
    endpoint's row number wrapped, then clamped by its gather. -/
theorem msg_apply (k : Fin 1700000) (q : Fin 128) :
    val_main_v40 (F := Ideal) x0 e x2 (ix2 k q)
      = val_main_v30 (F := Ideal) x0 x2 (ix2 (clampN (val_main_v35 (F := Ideal) e (Shape.Idx.ofFin k))) q)
        * (val_main_v14 (F := Ideal) e (Shape.Idx.ofFin (clampN (val_main_v19 (F := Ideal) e (Shape.Idx.ofFin k))))
           * val_main_v14 (F := Ideal) e (Shape.Idx.ofFin (clampN (val_main_v26 (F := Ideal) e (Shape.Idx.ofFin k))))) := by
  rw [val_main_v40_apply, val_main_v39_apply, val_main_v38_apply, val_main_v29_apply]
  have hk : idx_main_v38 (idx_main_v39 (ix2 k q)) = Shape.Idx.ofFin k := ofFin_ext _ _ rfl
  have hk36 : idx_main_v36 (ixP k) = Shape.Idx.ofFin k := ofFin_ext _ _ rfl
  have hk20 : idx_main_v20 (ixP k) = Shape.Idx.ofFin k := ofFin_ext _ _ rfl
  have hk27 : idx_main_v27 (ixP k) = Shape.Idx.ofFin k := ofFin_ext _ _ rfl
  rw [hk]
  have h37 : val_main_v37 (F := Ideal) x0 e x2 (ix2 k q)
      = val_main_v30 (F := Ideal) x0 x2 (ix2 (clampN (val_main_v35 (F := Ideal) e (Shape.Idx.ofFin k))) q) := by
    unfold val_main_v37
    rw [gatherRows_apply, val_main_v36_apply, hk36]
  have h21 : val_main_v21 (F := Ideal) e (Shape.Idx.ofFin k)
      = val_main_v14 (F := Ideal) e (Shape.Idx.ofFin (clampN (val_main_v19 (F := Ideal) e (Shape.Idx.ofFin k)))) := by
    unfold val_main_v21
    rw [take_apply, val_main_v20_apply, hk20]
  have h28 : val_main_v28 (F := Ideal) e (Shape.Idx.ofFin k)
      = val_main_v14 (F := Ideal) e (Shape.Idx.ofFin (clampN (val_main_v26 (F := Ideal) e (Shape.Idx.ofFin k)))) := by
    unfold val_main_v28
    rw [take_apply, val_main_v27_apply, hk27]
  rw [h37, h21, h28, Ideal.mulf_def, Ideal.mulf_def]

/-- A row number that reads, signed, as a node `p` is not wrapped and not clamped: it is `p`. -/
theorem clamp_wrap_of_toInt (v : BitVec 32) (p : Fin 100000) (h : v.toInt = (p.val : Int)) :
    clampN (Scalar.select (IntOp.cmpi .slt v 0#32) (IntOp.addi v 100000#32) v) = p := by
  have hc : IntOp.cmpi .slt v 0#32 = 0#1 := by
    unfold IntOp.cmpi
    have : v.slt 0#32 = false := by
      simp only [BitVec.slt, h]
      simp
    simp [this]
  rw [hc, select_zero]
  apply Fin.ext
  show min v.toInt.toNat (100000 - 1) = p.val
  rw [h]
  have := p.isLt
  simp only [Int.toNat_natCast]
  omega

/-- On an edge the scatter keeps at node `p`, the target's factor is `dinv[p]`. -/
theorem target_of_kept (k : Fin 1700000) (q' : Fin 128) (p : Fin 100000) (q : Fin 128)
    (h : dS.resultIdx? (ix2 k q') (val_main_v42 (F := Ideal) e) = some (ix2 p q)) :
    clampN (val_main_v26 (F := Ideal) e (Shape.Idx.ofFin k)) = p := by
  have h1 := kept_toInt _ k q' p q h
  rw [dstcol_apply] at h1
  rw [val_main_v26_apply, val_main_v23_apply, val_main_v25_apply, val_main_v22_apply, val_main_c_4_apply,
    val_main_v24_apply, val_main_c_5_apply]
  exact clamp_wrap_of_toInt _ p h1

/-- The two wraps of the source row numbers are one array. -/
theorem src_wraps_eq : val_main_v35 (F := Ideal) e = val_main_v19 (F := Ideal) e := by
  unfold val_main_v35 val_main_v19 val_main_v32 val_main_v16 val_main_v34 val_main_v18 val_main_v31 val_main_v15
    val_main_v33 val_main_v17 val_main_c_6 val_main_c val_main_c_7 val_main_c_3
  rfl

/-- The kernel's shape of the result: the rows of `h · dinv` gathered at the sources and added at the targets, then
    scaled by the target's factor, plus the bias. -/
def kernelShape : S100000x128.Idx → EReal := fun i =>
  Host.scatterAdd (F := Ideal) dS (val_main_v41 (F := Ideal)) (val_main_v42 (F := Ideal) e)
      (Host.gather gR (fun t => val_main_v30 (F := Ideal) x0 x2 t * val_main_v14 (F := Ideal) e (Shape.Idx.ofFin (row t)))
        (val_main_v36 (F := Ideal) e)) i
    * val_main_v14 (F := Ideal) e (Shape.Idx.ofFin (row i)) + x3 (Shape.Idx.ofFin (col i))

/-- THE LAW: the reference's result is the kernel's shape of it, entry by entry. -/
theorem ref_eq_kernelShape : val_main_v46 (F := Ideal) x0 e x2 x3 = kernelShape x0 e x2 x3 := by
  funext i
  obtain ⟨p, q, rfl⟩ : ∃ (p : Fin 100000) (q : Fin 128), i = ix2 p q := ⟨row i, col i, eq_row_col i⟩
  rw [val_main_v46_apply, Ideal.addf_def, bias_apply]
  unfold kernelShape val_main_v43
  rw [scatterAdd_apply, scatterAdd_apply, zeros_apply, row_ix2, col_ix2]
  refine sum_factor _ _ _ _ (dinv_good e _).1 (dinv_good e _).2 fun j hj => ?_
  obtain ⟨k, q', rfl⟩ : ∃ (k : Fin 1700000) (q' : Fin 128), j = ix2 k q' := ⟨j 0, j 1, eq_ix2 j⟩
  have hkept := (Finset.mem_filter.mp hj).2
  have hk : idx_main_v36 (ixP k) = Shape.Idx.ofFin k := ofFin_ext _ _ rfl
  rw [msg_apply, target_of_kept e k q' p q hkept, gatherRows_apply, val_main_v36_apply, src_wraps_eq, hk, row_ix2, mul_assoc]

end Cert.ReferenceIdeal.Form

end
-- ==== Proof.Bridge.lean ====
/-
  The kernel's result function is the reference's result function.
  The two programs spell the shared host computations (the edge lists with self-loops, the degree, the per-node
  factor, the wrapped source row numbers, the gather and the scatter) with the same operations, so those are the same
  functions of the edge list; what differs is where the target's factor multiplies, and that is the law proved on the
  reference's side.  Here the kernel's function is rewritten into the shape that law is stated in: the factor laid
  along rows read at an entry, the product `x · W` as the reference's `dot_general`, the bias row read at a column.
-/
import proofs.«163717_j34591666602118_1_alg».proof.Proof.KValue
import proofs.«163717_j34591666602118_1_alg».proof.Proof.RefForm
import Idealize.ShloMosaic.Lib.ValueLayout

set_option maxRecDepth 16384

noncomputable section

open scoped BigOperators

namespace Cert.Bridge

open Cert.GcnSpec Cert.KernelIdeal.HostValue Cert.KernelIdeal.ResultValue
open Idealize.ShloMosaic Idealize.ShloMosaic.ValueIdx Idealize.ShloMosaic.StableHlo.Predicate

section AnyInstance
variable {F : FTy → Type} [FloatOps F]

/-- Both programs compute the per-node factor by the same operations of the edge list. -/
theorem dinvV_eq (e : IVec Cert.KernelIdeal.S2x1600000 32) :
    dinvV (F := F) e = Cert.ReferenceIdeal.Read.val_main_v14 (F := F) e := rfl

/-- Both programs aggregate by the same gather at the wrapped sources and the same scatter-add at the targets. -/
theorem aggV_eq (hn : FVec F Cert.KernelIdeal.S100000x128 .f32) (e : IVec Cert.KernelIdeal.S2x1600000 32) :
    aggV (F := F) hn e
      = Host.scatterAdd (F := F) Cert.ReferenceIdeal.Form.dS (Cert.ReferenceIdeal.Read.val_main_v41 (F := F))
          (Cert.ReferenceIdeal.Read.val_main_v42 (F := F) e)
          (Host.gather Cert.ReferenceIdeal.Form.gR hn (Cert.ReferenceIdeal.Read.val_main_v36 (F := F) e)) := rfl

end AnyInstance

theorem ix1_eq_ofFin {n : Nat} (q : Fin n) : (ix1 q : (⟨1, ![n]⟩ : Shape).Idx) = Shape.Idx.ofFin q := by
  funext a; obtain rfl : a = 0 := Subsingleton.elim _ _; rfl

/-- The factor laid along rows reads, at an entry, the factor of the entry's node. -/
theorem dinvB_apply (e : IVec Cert.KernelIdeal.S2x1600000 32) (t : SNM.Idx) :
    dinvB (F := Ideal) e t = Cert.ReferenceIdeal.Read.val_main_v14 (F := Ideal) e (Shape.Idx.ofFin (row t)) := by
  obtain ⟨p, q, rfl⟩ : ∃ (p : Fin 100000) (q : Fin 128), t = ix2 p q := ⟨row t, col t, eq_row_col t⟩
  rw [row_ix2, ← dinvV_eq, ← Cert.ReferenceIdeal.Form.ij_eq_ix2]
  unfold dinvB
  exact bcast_rows _ _ _ p q

/-- The exact product `x · W` is the reference's `dot_general`. -/
theorem xw_eq (x : FVec Ideal Cert.KernelIdeal.S100000x128 .f32) (w : FVec Ideal Cert.KernelIdeal.S128x128 .f32) (t : SNM.Idx) :
    xw x w t = Cert.ReferenceIdeal.Read.val_main_v30 (F := Ideal) x w t := by
  obtain ⟨p, q, rfl⟩ : ∃ (p : Fin 100000) (q : Fin 128), t = ix2 p q := ⟨row t, col t, eq_row_col t⟩
  rw [Cert.ReferenceIdeal.Read.val_main_v30_apply]
  unfold xw
  refine Finset.sum_congr rfl fun k _ => ?_
  rw [row_ix2, col_ix2]
  congr 2
  · funext a; match a with | ⟨0, _⟩ => rfl | ⟨1, _⟩ => rfl
  · funext a; match a with | ⟨0, _⟩ => rfl | ⟨1, _⟩ => rfl

/-- The bias kept as one row reads the bias at the column. -/
theorem biasRow_apply (b : FVec Ideal Cert.KernelIdeal.S128 .f32) (q : Fin 128) :
    biasRow (F := Ideal) b (ix2 (0 : Fin 1) q) = b (Shape.Idx.ofFin q) := by
  unfold biasRow
  rw [shapeCast_a_1a_apply, ix1_eq_ofFin]

/-- The kernel's result function is the reference's, in the shape the reference's law is stated in. -/
theorem kOut_eq_kernelShape (x : FVec Ideal Cert.KernelIdeal.S100000x128 .f32) (e : IVec Cert.KernelIdeal.S2x1600000 32)
    (w : FVec Ideal Cert.KernelIdeal.S128x128 .f32) (b : FVec Ideal Cert.KernelIdeal.S128 .f32) :
    kOut x e w b = Cert.ReferenceIdeal.Form.kernelShape x e w b := by
  have hs : scaled x (dinvB (F := Ideal) e) w
      = fun t => Cert.ReferenceIdeal.Read.val_main_v30 (F := Ideal) x w t
          * Cert.ReferenceIdeal.Read.val_main_v14 (F := Ideal) e (Shape.Idx.ofFin (row t)) := by
    funext t
    unfold scaled
    rw [xw_eq, dinvB_apply]
  funext i
  unfold kOut finalized Cert.ReferenceIdeal.Form.kernelShape
  rw [hs, aggV_eq, dinvB_apply, biasRow_apply]

/-- The kernel's result function is the reference's result function. -/
theorem kOut_eq_ref (x : FVec Ideal Cert.KernelIdeal.S100000x128 .f32) (e : IVec Cert.KernelIdeal.S2x1600000 32)
    (w : FVec Ideal Cert.KernelIdeal.S128x128 .f32) (b : FVec Ideal Cert.KernelIdeal.S128 .f32) :
    kOut x e w b = Cert.ReferenceIdeal.Read.val_main_v46 (F := Ideal) x e w b :=
  (kOut_eq_kernelShape x e w b).trans (Cert.ReferenceIdeal.Form.ref_eq_kernelShape x e w b).symm

end Cert.Bridge

end
-- ==== Proof.lean ====
/-
  A graph-convolution layer: `out = D^(-1/2) (A + I) D^(-1/2) (x W) + b`, with `A` given as an edge list, `I` the
  self-loops and `D` the in-degrees with self-loops.

  The reference forms one message per edge, `(x W)[u] · (dinv[u] · dinv[v])`, and adds the messages at their targets.
  The kernel splits the same sum around the aggregation: a first region computes `(x W) · dinv` row by row (an exact
  matrix product of row blocks, scaled entry by entry), the host gathers those rows at the sources and adds them at the
  targets, and a second region scales each aggregated row by its own `dinv` and adds the bias.  The two agree because
  every message added at node p has target p, so `dinv[p]` is a common factor of the sum at p, and a nonnegative
  finite factor may be taken out of a sum of extended reals (the degree's reciprocal square root, guarded by
  `deg > 0`, is always such a number).  No finiteness of the inputs is needed for that.

  The frames of the two kernel programs are the generated ones; the reference's frame is its run with the result
  dropped.  For the value, the kernel program's run is read boundary by boundary (each region's output array as one
  whole-array function of its inputs, the host stretches as their operations' composed terms), and the reference's
  run is read one operation at a time.
-/
import proofs.«163717_j34591666602118_1_alg».proof.Defs
import proofs.«163717_j34591666602118_1_alg».proof.Proof.Gen.Kernel
import proofs.«163717_j34591666602118_1_alg».proof.Proof.Gen.Kernel.Frame
import proofs.«163717_j34591666602118_1_alg».proof.Proof.Gen.KernelIdeal
import proofs.«163717_j34591666602118_1_alg».proof.Proof.Gen.KernelIdeal.Frame
import proofs.«163717_j34591666602118_1_alg».proof.Proof.Gen.ReferenceIdeal
import proofs.«163717_j34591666602118_1_alg».proof.Proof.Gen.Pre_finite_inputs
import proofs.«163717_j34591666602118_1_alg».proof.Proof.KRun
import proofs.«163717_j34591666602118_1_alg».proof.Proof.KValue
import proofs.«163717_j34591666602118_1_alg».proof.Proof.RefRun
import proofs.«163717_j34591666602118_1_alg».proof.Proof.RefRead
import proofs.«163717_j34591666602118_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the four arguments both programs end with the same result array: the kernel's at its
    result function of the arguments, the reference's at its own, and the two functions are one. -/
theorem algebraic : Cert.algebraic_KernelIdeal_ReferenceIdeal := by
  intro m ρ m' ρ' _ hagree
  refine ⟨fun c => Cert.KernelIdeal.ResultValue.kOut
      (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.ResultValue.W6_result m ρ c), (h c).2⟩)
      (Cert.KernelIdeal.RunResult.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v46_eq, (hagree c).1, (hagree c).2.1, (hagree c).2.2.1, (hagree c).2.2.2]
    exact (Cert.Bridge.kOut_eq_ref _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
